-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S256x4096_S256x4096_0_0 : ∀ a, (![0, 0] : Fin 2 → Nat) a + S256x4096.size a ≤ S256x4096.size a
  h_S256x4096 : 0 < S256x4096.numel
  broadcasts_S1x4096_S256x4096 : S1x4096.Broadcasts S256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S8192x4096 : Shape := ⟨2, ![8192, 4096]⟩
abbrev S4096 : Shape := ⟨1, ![4096]⟩
abbrev S1x4096 : Shape := ⟨2, ![1, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S8192x4096, .f32⟩
  | .hbm, ⟨5, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.ColumnScale.lean ====
/-
  Scaling the columns of a matrix by the exponentials of a vector.  For a matrix x of 8192 rows and 4096 columns and a
  vector d of 4096 entries, the matrix whose entry (r, j) is x(r, j) · exp(d(j)): every row of x multiplied, column by
  column, by the same positive weights exp(d).  Stated once here, over any float instance, as ONE function of the two
  arrays, index by index; the two programs of this certificate are then each shown to leave exactly this array.
  The formula uses one product and one exponential per entry and nothing else, so no law of the extended reals
  (distributivity, cancellation) is needed to compare the programs, and finiteness of the inputs plays no part.
-/
import Idealize.ShloMosaic.PureOps.Ideal

noncomputable section

namespace Cert.ColumnScale

open Idealize.ShloMosaic

variable {F : FTy → Type} [FloatOps F]

/-- The matrix's shape: 8192 rows of 4096 columns. -/
abbrev Smat : Shape := ⟨2, ![8192, 4096]⟩
/-- The vector's shape: one weight per column. -/
abbrev Svec : Shape := ⟨1, ![4096]⟩

/-- The column of a matrix index, as an index of the vector of weights. -/
abbrev col (i : Smat.Idx) : Svec.Idx := fun a => match a with
  | ⟨0, _⟩ => ⟨(i 1).val, (i 1).isLt⟩

/-- The scaled matrix: entry (r, j) is x(r, j) · exp(d(j)). -/
def scaled (x : Vec F Smat .f32) (d : Vec F Svec .f32) : Vec F Smat .f32 :=
  fun i => FloatOps.mulf (x i) (FloatOps.exp (d (col i)))

/-- The scaled matrix read at an index. -/
theorem scaled_apply (x : Vec F Smat .f32) (d : Vec F Svec .f32) (i : Smat.Idx) :
    scaled x d i = FloatOps.mulf (x i) (FloatOps.exp (d (col i))) := rfl

end Cert.ColumnScale

end
-- ==== Proof.KernelScale.lean ====
/-
  The kernel leaves the scaled matrix.  It walks the matrix in 32 tiles of 256 whole rows.  At tile t it holds rows
  256·t … 256·t + 255 of x and the weights d laid out as a matrix of one row, and stores, at (r, j) of the tile,
  x(256·t + r, j) · exp(d(j)): the exponential of the one row is taken first and then repeated down the tile's rows, so
  the second factor at (r, j) is the exponential of the row's entry j whatever r is.  That is the scaled matrix read
  at (256·t + r, j), so every tile writes back its own rows of ONE array; and since row i lies in tile i / 256, the 32
  tiles cover all 8192 rows and the result array ends holding the scaled matrix everywhere.
-/
import proofs.«426969_j73126113181894_3_alg».proof.Proof.Gen.KernelIdeal.Value
import proofs.«426969_j73126113181894_3_alg».proof.Proof.ColumnScale
import Idealize.ShloMosaic.Lib.Pipeline.Value
import Idealize.ShloMosaic.Lib.StableHlo.Run

noncomputable section

namespace Cert.KernelIdeal.Scale

open Cert.KernelIdeal Cert.KernelIdeal.Gen Cert.KernelIdeal.Value Idealize.ShloMosaic Idealize.ShloMosaic.TcCoe Idealize.SL.Sem
open Idealize.ShloMosaic.Pipeline (Dat)
open Cert.ColumnScale

variable {F : FTy → Type} [FloatOps F]
variable (m : (ℓ : Loc nD τ sig) → Buf (Elt F) ℓ) (ρ : Dev nD → PrngReg)

/-- The body reads and writes its buffers whole: through rectangles at offsets zero. -/
theorem zero_offsets : (![0, 0] : Fin 2 → Nat) = fun _ => 0 := funext fun a => by fin_cases a <;> rfl

/-! ## One tile -/

/-- What the body leaves at (r, j) of its tile, from the tile's rows `x0` and the one row of weights `x1`:
    x0(r, j) · exp(x1(0, j)). -/
theorem tile_apply (x0 : Vec F S256x4096 .f32) (x1 : Vec F S1x4096 .f32) (y : S256x4096.Idx) :
    out0_2 x0 x1 y = FloatOps.mulf (x0 y) (FloatOps.exp (x1 (ix2_1 y))) := by
  unfold out0_2
  rw [canon2_eq]
  show FloatOps.mulf (View.ld x0 r0_1 (ix2_0 y)) (FloatOps.exp (View.ld x1 r0_0 (ix2_1 y))) = _
  rw [View.ld_unit_zero (S := S256x4096) zero_offsets, View.ld_unit_zero (S := S1x4096) zero_offsets]
  have e : ix2_0 y = y := by
    funext a; apply Fin.ext
    match a with
    | ⟨0, _⟩ => rfl
    | ⟨1, _⟩ => rfl
  rw [e]

/-! ## The arrays the region finds -/

/-- The weights as the region finds them: the vector d laid out, in order, as a matrix of one row. -/
theorem weights_row (c : Dev nD) :
    (V m c main_v0 : S1x4096.Idx → Elt F .f32)
      = shapeCast S1x4096 (m ((c : Thread nD τ).loc main_arg1) : S4096.Idx → Elt F .f32) shapeCasts_S4096_S1x4096 := by
  dsimp only [V, hostOps0]
  after_results
  rfl

/-- Entry (0, j) of that row is d(j). -/
theorem weights_row_apply (c : Dev nD) (j : S1x4096.Idx) (k : S4096.Idx) (hk : (k 0).val = (j 1).val) :
    (V m c main_v0 : S1x4096.Idx → Elt F .f32) j = (m ((c : Thread nD τ).loc main_arg1) : S4096.Idx → Elt F .f32) k := by
  rw [weights_row]
  refine shapeCast_apply _ _ j k ?_
  rw [Shape.rowMajor_val_one, Shape.rowMajor_val_two]
  have h0 : (j 0).val < 1 := (j 0).isLt
  show (k 0).val = (j 0).val * 4096 + (j 1).val
  omega

/-- Where the windows' blocks sit, decided over the 32 tiles: the matrix windows (input and output) at block row t,
    the weights' window always at its one block. -/
theorem block_rows : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The blocks the body is handed -/

/-- The matrix window's block at tile t is rows 256·t … 256·t + 255 of x: its entry (r, j) is x(256·t + r, j). -/
theorem rows_apply (c : Dev nD) (t : Fin cfg0.N) (y : S256x4096.Idx) (i : S8192x4096.Idx)
    (h0 : (i 0).val = 256 * t.val + (y 0).val) (h1 : (i 1).val = (y 1).val) :
    (iblk m c 0 t : Vec F S256x4096 .f32) y
      = (m ((c : Thread nD τ).loc main_arg0) : S8192x4096.Idx → Elt F .f32) i := by
  obtain ⟨e0, e1, -⟩ := block_rows t
  unfold iblk
  rw [View.read_apply]
  show V m c main_arg0 _ = _
  rw [V_main_arg0]
  congr 1
  funext a
  apply Fin.ext
  match a with
  | ⟨0, _⟩ => show win0_0.index t (0 : Fin 2) * 256 + 1 * (y 0).val = (i 0).val; omega
  | ⟨1, _⟩ => show win0_0.index t (1 : Fin 2) * 4096 + 1 * (y 1).val = (i 1).val; omega

/-- The weights' window has one block, the whole row, at every tile: its entry (0, j) is d(j). -/
theorem weights_apply (c : Dev nD) (t : Fin cfg0.N) (y : S1x4096.Idx) (k : S4096.Idx) (hk : (k 0).val = (y 1).val) :
    (iblk m c 1 t : Vec F S1x4096 .f32) y
      = (m ((c : Thread nD τ).loc main_arg1) : S4096.Idx → Elt F .f32) k := by
  obtain ⟨-, -, e2, e3, -⟩ := block_rows t
  unfold iblk
  rw [View.read_apply]
  show V m c main_v0 _ = _
  refine weights_row_apply m c _ k ?_
  show (k 0).val = win0_1.index t (1 : Fin 2) * 4096 + 1 * (y 1).val
  omega

/-! ## Every tile writes back its rows of the scaled matrix -/

/-- WHAT TILE t WRITES BACK is its block of the scaled matrix of the two arguments. -/
theorem flushed_eq (c : Dev nD) (t : Fin cfg0.N) :
    (dats m 0 c).flushed 2 t = ((cfg0.win 2).blk t).view.read (Elt F)
      (scaled (m ((c : Thread nD τ).loc main_arg0)) (m ((c : Thread nD τ).loc main_arg1))) := by
  obtain ⟨-, -, -, -, e4, e5⟩ := block_rows t
  show (cfg0.win 2).cut (grid0.coords t) ((dats m 0 c).after 2 t) = _
  rw [after0_2]
  funext y
  show out0_2 (iblk m c 0 t) (iblk m c 1 t) y
    = scaled (m ((c : Thread nD τ).loc main_arg0)) (m ((c : Thread nD τ).loc main_arg1)) (((cfg0.win 2).blk t).view.emb y)
  refine (tile_apply (iblk m c 0 t) (iblk m c 1 t) y).trans ?_
  have hx : (iblk m c 0 t : Vec F S256x4096 .f32) y
      = (m ((c : Thread nD τ).loc main_arg0) : S8192x4096.Idx → Elt F .f32) (((cfg0.win 2).blk t).view.emb y) :=
    rows_apply m c t y _
      (by show win0_2.index t (0 : Fin 2) * 256 + 1 * (y 0).val = 256 * t.val + (y 0).val; omega)
      (by show win0_2.index t (1 : Fin 2) * 4096 + 1 * (y 1).val = (y 1).val; omega)
  have hw : (iblk m c 1 t : Vec F S1x4096 .f32) (ix2_1 y)
      = (m ((c : Thread nD τ).loc main_arg1) : S4096.Idx → Elt F .f32) (col (((cfg0.win 2).blk t).view.emb y)) :=
    weights_apply m c t (ix2_1 y) _
      (by show win0_2.index t (1 : Fin 2) * 4096 + 1 * (y 1).val = (y 1).val; omega)
  rw [hx, hw]
  rfl

/-! ## The tiles cover the matrix -/

/-- An index is in tile t's block iff each coordinate is in the block's range on its axis. -/
theorem mem_tile (t : Fin cfg0.N) (i : S8192x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v1).slice (win0_2.rect t)).set ↔ _
  rw [View.set_slice_whole, Rect.mem_set_unit]
  exact Iff.rfl

/-- Row i of the matrix lies in tile i / 256, and every tile writes back: the 32 tiles cover all 8192 rows. -/
theorem covered (i : S8192x4096.Idx) :
    ∃ t : Fin cfg0.N, (cfg0.win 2).flush t = true ∧ i ∈ ((cfg0.win 2).blk t).view.set := by
  have hN : cfg0.N = 32 := N_0
  have hi0 : (i 0).val < 8192 := (i 0).isLt
  have hi1 : (i 1).val < 4096 := (i 1).isLt
  have ht : (i 0).val / 256 < cfg0.N := by rw [hN]; omega
  obtain ⟨-, -, -, -, e4, e5⟩ := block_rows ⟨(i 0).val / 256, ht⟩
  refine ⟨⟨(i 0).val / 256, ht⟩, flush0_2 _, ?_⟩
  rw [mem_tile]
  intro a
  match a with
  | ⟨0, _⟩ =>
    show win0_2.index ⟨(i 0).val / 256, ht⟩ (0 : Fin 2) * 256 ≤ (i 0).val
      ∧ (i 0).val < win0_2.index ⟨(i 0).val / 256, ht⟩ (0 : Fin 2) * 256 + 256
    rw [e4]
    show (i 0).val / 256 * 256 ≤ (i 0).val ∧ (i 0).val < (i 0).val / 256 * 256 + 256
    omega
  | ⟨1, _⟩ =>
    show win0_2.index ⟨(i 0).val / 256, ht⟩ (1 : Fin 2) * 4096 ≤ (i 1).val
      ∧ (i 1).val < win0_2.index ⟨(i 0).val / 256, ht⟩ (1 : Fin 2) * 4096 + 4096
    rw [e5]
    omega

/-! ## The result array, and the run -/

/-- THE RESULT ARRAY after the last tile is the scaled matrix of the two arguments. -/
theorem final (c : Dev nD) : (dats m 0 c).arrAt 2 cfg0.N
    = scaled (m ((c : Thread nD τ).loc main_arg0)) (m ((c : Thread nD τ).loc main_arg1)) :=
  (dats m 0 c).arrAt_eq_of_cover 2
    (scaled (m ((c : Thread nD τ).loc main_arg0)) (m ((c : Thread nD τ).loc main_arg1)))
    (fun t _ => flushed_eq m c t) covered

/-- Every weakly fair execution of the kernel's program ends with the result array at the scaled matrix of the
    arguments, and the arguments as launched. -/
theorem run : θ_run defs (onTc (τ := τ) (main (F := F))) ⟨m, fun _ => 0, ρ⟩ fun r => ∀ c : Dev nD,
      r.2.mem ((c : Thread nD τ).loc main_v1)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Scale

end
-- ==== Proof.ReferenceScale.lean ====
/-
  The reference computes the scaled matrix.  Its four host operations are: the exponential of the vector d, entry by
  entry; that vector laid out as a matrix of one row; the row repeated down all 8192 rows; and the entrywise product
  with x.  Reading the last stage at an index (r, j) and following the two broadcasts back, the second factor is the
  exponential of d at the index's column j, so the stage is x(r, j) · exp(d(j)).  On the extended reals the host's
  exponential and the vector exponential of the kernel are one function, which is the only fact used beyond the reads.
-/
import proofs.«426969_j73126113181894_3_alg».proof.Proof.Gen.ReferenceIdeal.Read
import proofs.«426969_j73126113181894_3_alg».proof.Proof.ColumnScale

noncomputable section

namespace Cert.ReferenceIdeal.Scale

open Cert.ReferenceIdeal Cert.ReferenceIdeal.Read Idealize.ShloMosaic Cert.ColumnScale

/-- Following a matrix index back through the two broadcasts lands on its column. -/
theorem through_broadcasts (i : S8192x4096.Idx) : idx_main_v1 (idx_main_v2 i) = col i := by
  funext a
  apply Fin.ext
  match a with
  | ⟨0, _⟩ => rfl

/-- The reference's last stage is the scaled matrix of its two arguments. -/
theorem stage_eq (x0 : Vec Ideal S8192x4096 .f32) (x1 : Vec Ideal S4096 .f32) :
    val_main_v3 (F := Ideal) x0 x1 = scaled (F := Ideal) x0 x1 := by
  funext i
  rw [val_main_v3_apply, val_main_v2_apply, val_main_v1_apply, val_main_v0_apply, through_broadcasts]
  rfl

end Cert.ReferenceIdeal.Scale

end
-- ==== Proof.lean ====
/-
  The kernel scales the columns of a matrix x (8192 rows, 4096 columns) by the exponentials of a vector d: it walks x
  in 32 tiles of 256 rows and stores x(r, j) · exp(d(j)) at every entry, the exponential of d recomputed at each tile.
  The reference computes x · exp(d) in one broadcast product.  Both leave ONE array, the scaled matrix of
  Proof/ColumnScale.lean: the kernel tile by tile, the tiles covering every row (Proof/KernelScale.lean), the reference
  by reading its last stage at an index through its two broadcasts (Proof/ReferenceScale.lean).  The formula is the same
  product of the same two factors on both sides, so the comparison uses no law of the extended reals and never opens
  the precondition.  The three programs' runs terminate with their arguments unchanged: the two kernel programs by their
  generated frames, the reference by its generated run.  The idealization rewrote no operation, so there is nothing to
  preserve beyond the program's own text.
-/
import proofs.«426969_j73126113181894_3_alg».proof.Defs
import proofs.«426969_j73126113181894_3_alg».proof.Proof.Gen.Kernel
import proofs.«426969_j73126113181894_3_alg».proof.Proof.Gen.Kernel.Skeleton
import proofs.«426969_j73126113181894_3_alg».proof.Proof.Gen.Kernel.Launch
import proofs.«426969_j73126113181894_3_alg».proof.Proof.Gen.Kernel.Points
import proofs.«426969_j73126113181894_3_alg».proof.Proof.Gen.Kernel.Frame
import proofs.«426969_j73126113181894_3_alg».proof.Proof.Gen.KernelIdeal
import proofs.«426969_j73126113181894_3_alg».proof.Proof.Gen.KernelIdeal.Skeleton
import proofs.«426969_j73126113181894_3_alg».proof.Proof.Gen.KernelIdeal.Launch
import proofs.«426969_j73126113181894_3_alg».proof.Proof.Gen.KernelIdeal.Points
import proofs.«426969_j73126113181894_3_alg».proof.Proof.Gen.KernelIdeal.Frame
import proofs.«426969_j73126113181894_3_alg».proof.Proof.Gen.KernelIdeal.Value
import proofs.«426969_j73126113181894_3_alg».proof.Proof.Gen.ReferenceIdeal
import proofs.«426969_j73126113181894_3_alg».proof.Proof.Gen.ReferenceIdeal.Run
import proofs.«426969_j73126113181894_3_alg».proof.Proof.Gen.ReferenceIdeal.Read
import proofs.«426969_j73126113181894_3_alg».proof.Proof.Gen.Pre_finite_inputs
import proofs.«426969_j73126113181894_3_alg».proof.Proof.ColumnScale
import proofs.«426969_j73126113181894_3_alg».proof.Proof.KernelScale
import proofs.«426969_j73126113181894_3_alg».proof.Proof.ReferenceScale
import Idealize.ShloMosaic.Adequacy
import Idealize.ShloMosaic.Init

noncomputable section

namespace Cert.Proof

open Idealize.ShloMosaic Idealize.SL.Sem Cert.Kernel

/-- From memories that agree on x and d, the kernel's result array ends at the scaled matrix of its arguments and the
    reference's at its last stage, which is the scaled matrix of the same arguments. -/
theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · exact fun m ρ _ =>
      (θ_run Cert.ReferenceIdeal.defs _ _).mono (fun _ h c => (h c).2) (Cert.ReferenceIdeal.Value.run (F := Ideal) m ρ)
  · intro m ρ m' ρ' _ hagree
    refine ⟨_, Cert.KernelIdeal.Scale.run (F := Ideal) m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v3_eq, Cert.ReferenceIdeal.Scale.stage_eq, (hagree c).1, (hagree c).2]⟩

end Cert.Proof

end
